-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S8x2048x4096 : Shape := ⟨3, ![8, 2048, 4096]⟩
abbrev S8x2048x2048 : Shape := ⟨3, ![8, 2048, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S32768x2048 .f32) (main_arg1 : FVec F S8x2048x4096 .f32) (main_arg2 : FVec F S8x2048x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S8x2048x4096 .f32 := Host.absf main_arg1
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  main_v13
-- ==== Kernel.lean ====
abbrev S32768x2048 : Shape := ⟨2, ![32768, 2048]⟩
abbrev S8x2048x4096 : Shape := ⟨3, ![8, 2048, 4096]⟩
abbrev S8x2048x2048 : Shape := ⟨3, ![8, 2048, 2048]⟩
abbrev S256x2048 : Shape := ⟨2, ![256, 2048]⟩
abbrev S1x2048x4096 : Shape := ⟨3, ![1, 2048, 4096]⟩
abbrev S1x2048x2048 : Shape := ⟨3, ![1, 2048, 2048]⟩
abbrev S2048x4096 : Shape := ⟨2, ![2048, 4096]⟩
abbrev S2048x2048 : Shape := ⟨2, ![2048, 2048]⟩
abbrev S256x4096 : Shape := ⟨2, ![256, 4096]⟩

abbrev nBuf : Space → Nat
  | .hbm => 7
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S8x2048x4096, .f32⟩
  | .hbm, ⟨2, _⟩ => ⟨S8x2048x2048, .f32⟩
  | .hbm, ⟨3, _⟩ => ⟨S32768x2048, .bf16⟩
  | .hbm, ⟨4, _⟩ => ⟨S8x2048x4096, .bf16⟩
  | .hbm, ⟨5, _⟩ => ⟨S8x2048x2048, .bf16⟩
  | .hbm, ⟨6, _⟩ => ⟨S32768x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x4096, .bf16⟩
  | .local _ .vmem, ⟨3, _⟩ => ⟨S1x2048x2048, .bf16⟩
  | .local _ .vmem, ⟨4, _⟩ => ⟨S256x2048, .f32⟩
  | .local _ .vmem, ⟨5, _⟩ => ⟨S256x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048x4096_S1x2048x4096_0_0_0 : ∀ a, (![0, 0, 0] : Fin 3 → Nat) a + S1x2048x4096.size a ≤ S1x2048x4096.size a
  h_S1x2048x4096 : 0 < S1x2048x4096.numel
  shapeCasts_S1x2048x4096_S2048x4096 : S1x2048x4096.ShapeCasts S2048x4096
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  slices_S256x4096_o0_0_S256x2048 : S256x4096.Slices ![0, 0] S256x2048
  slices_S256x4096_o0_2048_S256x2048 : S256x4096.Slices ![0, 2048] S256x2048
  dot_S256x2048_S2048x4096_S256x4096_1_0_0_1_n_n_wf : DotDims.WF S256x2048 S2048x4096 S256x4096 [1] [0] [0] [1] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S32768x2048.size a
  hwx0_0 : ∀ i : grid0.Coords, EltTy.bits .bf16 = 32 ∨ (Rect.block (s := S32768x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x4096.size a ≤ S8x2048x4096.size a
  hwx0_1 : ∀ i : grid0.Coords, EltTy.bits .bf16 = 32 ∨ (Rect.block (s := S8x2048x4096) S1x2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x2048.size a ≤ S8x2048x2048.size a
  hwx0_2 : ∀ i : grid0.Coords, EltTy.bits .bf16 = 32 ∨ (Rect.block (s := S8x2048x2048) S1x2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S32768x2048.size a
  hwx0_3 : ∀ i : grid0.Coords, EltTy.bits .f32 = 32 ∨ (Rect.block (s := S32768x2048) S256x2048.size (cc0_transform_3 i) (hinb0_3 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S8x2048x4096 : Shape := ⟨3, ![8, 2048, 4096]⟩
abbrev S8x2048x2048 : Shape := ⟨3, ![8, 2048, 2048]⟩
abbrev S8x4096x2048 : Shape := ⟨3, ![8, 4096, 2048]⟩
abbrev S8x4096x4096 : Shape := ⟨3, ![8, 4096, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S8x2048x4096, .f32⟩
  | .hbm, ⟨2, _⟩ => ⟨S8x2048x2048, .f32⟩
  | .hbm, ⟨3, _⟩ => ⟨S8x4096x2048, .f32⟩
  | .hbm, ⟨4, _⟩ => ⟨S8x4096x4096, .f32⟩
  | .hbm, ⟨5, _⟩ => ⟨S8x4096x2048, .f32⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S_, .f32⟩
  | .hbm, ⟨10, _⟩ => ⟨S8x4096x2048, .f32⟩
  | .hbm, ⟨11, _⟩ => ⟨S8x4096x2048, .f32⟩
  | .hbm, ⟨12, _⟩ => ⟨S_, .f32⟩
  | .hbm, ⟨13, _⟩ => ⟨S8x4096x2048, .f32⟩
  | .hbm, ⟨14, _⟩ => ⟨S8x4096x2048, .f32⟩
  | .hbm, ⟨15, _⟩ => ⟨S8x4096x2048, .f32⟩
  | .hbm, ⟨16, _⟩ => ⟨S8x4096x2048, .f32⟩
  | .hbm, ⟨17, _⟩ => ⟨S8x4096x2048, .f32⟩
  | .hbm, ⟨18, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S32768x2048_S8x4096x2048 : S32768x2048.ShapeCasts S8x4096x2048
  slices_S8x4096x4096_S8x4096x2048_0_0_0 : S8x4096x4096.Slices ![0, 0, 0] S8x4096x2048
  slices_S8x4096x4096_S8x4096x2048_0_0_2048 : S8x4096x4096.Slices ![0, 0, 2048] S8x4096x2048
  bcast_S_S8x4096x2048 : S_.BroadcastsInDim S8x4096x2048 (![] : Fin 0 → Fin S8x4096x2048.rank)
  shapeCasts_S8x4096x2048_S32768x2048 : S8x4096x2048.ShapeCasts S32768x2048
  dot_S8x4096x2048_S8x2048x4096_S8x4096x4096_2_1_1_2_0_0_wf : DotDims.WF S8x4096x2048 S8x2048x4096 S8x4096x4096 [2] [1] [1] [2] [0] [0]
  dot_S8x4096x2048_S8x2048x2048_S8x4096x2048_2_1_1_2_0_0_wf : DotDims.WF S8x4096x2048 S8x2048x2048 S8x4096x2048 [2] [1] [1] [2] [0] [0]

variable [Facts₀]

def dot_S8x4096x2048_S8x2048x4096_S8x4096x4096_2_1_1_2_0_0 : DotDims S8x4096x2048 S8x2048x4096 S8x4096x4096 where
  lhsContracting := [2]
  rhsContracting := [1]
  lhsNonContracting := [1]
  rhsNonContracting := [2]
  lhsBatch := [0]
  rhsBatch := [0]
  wf := dot_S8x4096x2048_S8x2048x4096_S8x4096x4096_2_1_1_2_0_0_wf
def dot_S8x4096x2048_S8x2048x2048_S8x4096x2048_2_1_1_2_0_0 : DotDims S8x4096x2048 S8x2048x2048 S8x4096x2048 where
  lhsContracting := [2]
  rhsContracting := [1]
  lhsNonContracting := [1]
  rhsNonContracting := [2]
  lhsBatch := [0]
  rhsBatch := [0]
  wf := dot_S8x4096x2048_S8x2048x2048_S8x4096x2048_2_1_1_2_0_0_wf

class Facts : Prop extends Facts₀ where

variable [Facts]
-- ==== Proof.Spec.lean ====
/-
  The mathematics both programs compute, stated once over plain index types.

  A token row `xr` (2048 features) owned by one expert is projected by that expert's gate-and-up matrix `w`
  (2048 × 4096) to 4096 pre-activations, `proj xr w c = ∑ k, xr k · w k c`. Columns `0 … 2047` are the GATE
  pre-activations and columns `2048 … 4095` the UP pre-activations; intermediate feature `d` is
  `up_d · (gate_d · σ(gate_d))` with `σ x = 1 / (1 + e^(-x))` the logistic function (SwiGLU). The features are
  then projected back by the expert's down matrix `dn` (2048 × 2048): `expertRow xr w dn h = ∑ d, swiglu_d · dn d h`.

  Tokens are sorted by expert, 4096 to each of the eight experts, so row `r` of the 32768 × 2048 activations is
  owned by expert `r / 4096`; `G` is the whole result array, one `expertRow` per token row.

  Everything here lives on the extended reals with their own (total) sum and product; nothing is rearranged, so
  no finiteness of the inputs is used.
-/
import Idealize.ShloMosaic.PureOps.Ideal
import Idealize.ShloMosaic.Lib.ValueIdx

noncomputable section

open scoped BigOperators

namespace Cert.Experts

open Idealize.ShloMosaic Idealize.ShloMosaic.ValueIdx

/-- Column of the gate pre-activation of intermediate feature `d` in the fused gate-and-up projection. -/
def gateCol (d : Fin 2048) : Fin 4096 := ⟨d.val, by have := d.isLt; omega⟩
/-- Column of the up pre-activation of intermediate feature `d`: the second half of the fused projection. -/
def upCol (d : Fin 2048) : Fin 4096 := ⟨2048 + d.val, by have := d.isLt; omega⟩

/-- One pre-activation: the row against column `c` of the gate-and-up matrix. -/
def proj (xr : Fin 2048 → EReal) (w : Fin 2048 → Fin 4096 → EReal) (c : Fin 4096) : EReal :=
  ∑ k : Fin 2048, xr k * w k c

/-- SwiGLU: `up · (gate · σ(gate))`. -/
def swiglu (xr : Fin 2048 → EReal) (w : Fin 2048 → Fin 4096 → EReal) (d : Fin 2048) : EReal :=
  proj xr w (upCol d) * (proj xr w (gateCol d) * Ideal.logistic (proj xr w (gateCol d)))

/-- One token row through one expert, at output feature `h`. -/
def expertRow (xr : Fin 2048 → EReal) (w : Fin 2048 → Fin 4096 → EReal) (dn : Fin 2048 → Fin 2048 → EReal)
    (h : Fin 2048) : EReal :=
  ∑ d : Fin 2048, swiglu xr w d * dn d h

/-- The expert that owns token row `r`: rows are sorted by expert, 4096 rows each. -/
def expertOf (r : Fin 32768) : Fin 8 := ⟨r.val / 4096, by have := r.isLt; omega⟩

/-- The result at token row `r`, output feature `h`, from the whole argument arrays. -/
def Grow (x : (⟨2, ![32768, 2048]⟩ : Shape).Idx → EReal) (gu : (⟨3, ![8, 2048, 4096]⟩ : Shape).Idx → EReal)
    (dn : (⟨3, ![8, 2048, 2048]⟩ : Shape).Idx → EReal) (r : Fin 32768) (h : Fin 2048) : EReal :=
  expertRow (fun k => x (ix2 r k)) (fun k c => gu (ix3 (expertOf r) k c)) (fun d h' => dn (ix3 (expertOf r) d h')) h

/-- The whole result array. -/
def G (x : (⟨2, ![32768, 2048]⟩ : Shape).Idx → EReal) (gu : (⟨3, ![8, 2048, 4096]⟩ : Shape).Idx → EReal)
    (dn : (⟨3, ![8, 2048, 2048]⟩ : Shape).Idx → EReal) : (⟨2, ![32768, 2048]⟩ : Shape).Idx → EReal :=
  fun i => Grow x gu dn (i 0) (i 1)

theorem G_ix2 (x : (⟨2, ![32768, 2048]⟩ : Shape).Idx → EReal) (gu : (⟨3, ![8, 2048, 4096]⟩ : Shape).Idx → EReal)
    (dn : (⟨3, ![8, 2048, 2048]⟩ : Shape).Idx → EReal) (r : Fin 32768) (h : Fin 2048) :
    G x gu dn (ix2 r h) = Grow x gu dn r h := rfl

end Cert.Experts

end
-- ==== Proof.KernelRow.lean ====
/-
  The kernel body's one stored value, read at an element.

  At a grid point the body holds a 256-row block `x0` of the activations and the owning expert's two matrices
  `x1` (its gate-and-up matrix, with a leading unit axis) and `x2` (its down matrix, likewise). It forms the
  256 × 4096 pre-activations by one matrix product into a zero accumulator, takes the left half of the columns as
  the gates and the right half as the ups, forms `up · (gate · σ(gate))`, and multiplies by the down matrix, again
  into a zero accumulator. On the extended reals a product into a zero accumulator at (p, q) is the plain sum
  `∑ k, a (p, k) · b (k, q)`, a change of float format is the identity, and a slice or a dropped unit axis only
  renames an index. So the stored block at (p, h) is `expertRow` of row `p` of `x0` against `x1` and `x2`.
-/
import proofs.«143422_j6863357739469_1_alg».proof.Proof.Gen.KernelIdeal.Skeleton
import proofs.«143422_j6863357739469_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Experts

/-! ## The two matrix products' operand indices, axis by axis -/

theorem up_lhs_0 (i : S256x4096.Idx) (q : dot_S256x2048_S2048x4096_S256x4096_1_0_0_1_n_n.contr.Idx) :
    (dot_S256x2048_S2048x4096_S256x4096_1_0_0_1_n_n.lhsIdx i q 0).val = (i 0).val := by
  unfold DotDims.lhsIdx
  rw [dif_neg (show ¬(0 : Fin S256x2048.rank) ∈ dot_S256x2048_S2048x4096_S256x4096_1_0_0_1_n_n.lhsBatch by decide), dif_pos (show (0 : Fin S256x2048.rank) ∈ dot_S256x2048_S2048x4096_S256x4096_1_0_0_1_n_n.lhsNonContracting by decide)]
  rfl
theorem up_lhs_1 (i : S256x4096.Idx) (q : dot_S256x2048_S2048x4096_S256x4096_1_0_0_1_n_n.contr.Idx) :
    (dot_S256x2048_S2048x4096_S256x4096_1_0_0_1_n_n.lhsIdx i q 1).val = (q ⟨0, by decide⟩).val :=
  dot_S256x2048_S2048x4096_S256x4096_1_0_0_1_n_n.lhsIdx_val_of_single rfl i q
theorem up_rhs_0 (i : S256x4096.Idx) (q : dot_S256x2048_S2048x4096_S256x4096_1_0_0_1_n_n.contr.Idx) :
    (dot_S256x2048_S2048x4096_S256x4096_1_0_0_1_n_n.rhsIdx i q 0).val = (q ⟨0, by decide⟩).val :=
  dot_S256x2048_S2048x4096_S256x4096_1_0_0_1_n_n.rhsIdx_val_of_single rfl i q
theorem up_rhs_1 (i : S256x4096.Idx) (q : dot_S256x2048_S2048x4096_S256x4096_1_0_0_1_n_n.contr.Idx) :
    (dot_S256x2048_S2048x4096_S256x4096_1_0_0_1_n_n.rhsIdx i q 1).val = (i 1).val := by
  unfold DotDims.rhsIdx
  rw [dif_neg (show ¬(1 : Fin S2048x4096.rank) ∈ dot_S256x2048_S2048x4096_S256x4096_1_0_0_1_n_n.rhsBatch by decide), dif_pos (show (1 : Fin S2048x4096.rank) ∈ dot_S256x2048_S2048x4096_S256x4096_1_0_0_1_n_n.rhsNonContracting by decide)]
  rfl

theorem down_lhs_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem down_lhs_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem down_rhs_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem down_rhs_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-! ## The two products into a zero accumulator, at an element -/

/-- The 256 × 2048 by 2048 × 4096 product at (p, q): the sum over the shared axis. -/
theorem matmul_up_apply (a : FVec Ideal S256x2048 .bf16) (b : FVec Ideal S2048x4096 .bf16) (p : Fin 256) (q : Fin 4096) :
    matmul dot_S256x2048_S2048x4096_S256x4096_1_0_0_1_n_n none a b (constant S256x4096 .f32 0x00000000#32) (ix2 p q)
      = ∑ k : Fin 2048, a (ix2 p k) * b (ix2 k q) := by
  simp only [matmul]
  rw [Ideal.matmul_constant_zero_apply, ← Equiv.sum_comp (contrEquiv1 dot_S256x2048_S2048x4096_S256x4096_1_0_0_1_n_n 2048 rfl rfl).symm]
  refine Finset.sum_congr rfl fun k _ => ?_
  have hk := contrEquiv1_symm_val dot_S256x2048_S2048x4096_S256x4096_1_0_0_1_n_n 2048 rfl rfl k
  have el : dot_S256x2048_S2048x4096_S256x4096_1_0_0_1_n_n.lhsIdx (ix2 p q) ((contrEquiv1 dot_S256x2048_S2048x4096_S256x4096_1_0_0_1_n_n 2048 rfl rfl).symm k) = ix2 p k := funext fun a => Fin.ext (by
    match a with
    | ⟨0, _⟩ => exact up_lhs_0 _ _
    | ⟨1, _⟩ => exact (up_lhs_1 _ _).trans hk)
  have er : dot_S256x2048_S2048x4096_S256x4096_1_0_0_1_n_n.rhsIdx (ix2 p q) ((contrEquiv1 dot_S256x2048_S2048x4096_S256x4096_1_0_0_1_n_n 2048 rfl rfl).symm k) = ix2 k q := funext fun a => Fin.ext (by
    match a with
    | ⟨0, _⟩ => exact (up_rhs_0 _ _).trans hk
    | ⟨1, _⟩ => exact up_rhs_1 _ _)
  rw [el, er]

/-- The 256 × 2048 by 2048 × 2048 product at (p, h) likewise. -/
theorem matmul_down_apply (a : FVec Ideal S256x2048 .bf16) (b : FVec Ideal S2048x2048 .bf16) (p : Fin 256) (h : Fin 2048) :
    matmul dot_S256x2048_S2048x2048_S256x2048_1_0_0_1_n_n none a b (constant S256x2048 .f32 0x00000000#32) (ix2 p h)
      = ∑ d : Fin 2048, a (ix2 p d) * b (ix2 d h) := by
  simp only [matmul]
  rw [Ideal.matmul_constant_zero_apply, ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p h) ((contrEquiv1 dot_S256x2048_S2048x2048_S256x2048_1_0_0_1_n_n 2048 rfl rfl).symm k) = ix2 p k := funext fun a => Fin.ext (by
    match a with
    | ⟨0, _⟩ => exact down_lhs_0 _ _
    | ⟨1, _⟩ => exact (down_lhs_1 _ _).trans hk)
  have er : dot_S256x2048_S2048x2048_S256x2048_1_0_0_1_n_n.rhsIdx (ix2 p h) ((contrEquiv1 dot_S256x2048_S2048x2048_S256x2048_1_0_0_1_n_n 2048 rfl rfl).symm k) = ix2 k h := funext fun a => Fin.ext (by
    match a with
    | ⟨0, _⟩ => exact (down_rhs_0 _ _).trans hk
    | ⟨1, _⟩ => exact down_rhs_1 _ _)
  rw [el, er]

/-! ## Dropping the expert blocks' unit axis, and the two column halves -/

/-- The gate-and-up block without its unit axis at (k, q) is the block at (0, k, q). -/
theorem gu_cast_apply (x1 : Vec Ideal S1x2048x4096 .bf16) (k : Fin 2048) (q : Fin 4096) :
    shapeCast S2048x4096 x1 shapeCasts_S1x2048x4096_S2048x4096 (ix2 k q) = x1 (ix3 (0 : Fin 1) k q) :=
  shapeCast_apply x1 shapeCasts_S1x2048x4096_S2048x4096 (ix2 k q) (ix3 (0 : Fin 1) k q)
    (by rewrite [Shape.rowMajor_val_three, Shape.rowMajor_val_two]; show ((0 : ℕ) * 2048 + k.val) * 4096 + q.val = k.val * 4096 + q.val; omega)

/-- The down block without its unit axis at (d, h) is the block at (0, d, h). -/
theorem dn_cast_apply (x2 : Vec Ideal S1x2048x2048 .bf16) (d : Fin 2048) (h : Fin 2048) :
    shapeCast S2048x2048 x2 shapeCasts_S1x2048x2048_S2048x2048 (ix2 d h) = x2 (ix3 (0 : Fin 1) d h) :=
  shapeCast_apply x2 shapeCasts_S1x2048x2048_S2048x2048 (ix2 d h) (ix3 (0 : Fin 1) d h)
    (by rewrite [Shape.rowMajor_val_three, Shape.rowMajor_val_two]; show ((0 : ℕ) * 2048 + d.val) * 2048 + h.val = d.val * 2048 + h.val; omega)

/-- The left column half at (p, d) is the pre-activation at the gate column of `d`. -/
theorem gate_slice_apply (M : FVec Ideal S256x4096 .f32) (p : Fin 256) (d : Fin 2048) :
    extractStridedSlice S256x2048 ![0, 0] M slices_S256x4096_o0_0_S256x2048 (ix2 p d) = M (ix2 p (gateCol d)) :=
  extractStridedSlice_apply ![0, 0] M slices_S256x4096_o0_0_S256x2048 (ix2 p d) (ix2 p (gateCol d)) (fun a => match a with
    | ⟨0, _⟩ => by show p.val = 0 + p.val; omega
    | ⟨1, _⟩ => by show d.val = 0 + d.val; omega)

/-- The right column half at (p, d) is the pre-activation at the up column of `d`. -/
theorem up_slice_apply (M : FVec Ideal S256x4096 .f32) (p : Fin 256) (d : Fin 2048) :
    extractStridedSlice S256x2048 ![0, 2048] M slices_S256x4096_o0_2048_S256x2048 (ix2 p d) = M (ix2 p (upCol d)) :=
  extractStridedSlice_apply ![0, 2048] M slices_S256x4096_o0_2048_S256x2048 (ix2 p d) (ix2 p (upCol d)) (fun a => match a with
    | ⟨0, _⟩ => by show p.val = 0 + p.val; omega
    | ⟨1, _⟩ => by show 2048 + d.val = 2048 + d.val; omega)

/-- The logistic function acts element by element. -/
theorem logistic_apply {s : Shape} {φ : FTy} (v : FVec Ideal s φ) (i : s.Idx) : logistic v i = Ideal.logistic (v i) := rfl

/-! ## The stored value -/

/-- The block's pre-activations: the first product. -/
def preact (x0 : Vec Ideal S256x2048 .bf16) (x1 : Vec Ideal S1x2048x4096 .bf16) : FVec Ideal S256x4096 .f32 :=
  matmul dot_S256x2048_S2048x4096_S256x4096_1_0_0_1_n_n none
    (shapeCast S256x2048 x0 shapeCasts_S256x2048_S256x2048 : FVec Ideal S256x2048 .bf16)
    (shapeCast S2048x4096 x1 shapeCasts_S1x2048x4096_S2048x4096 : FVec Ideal S2048x4096 .bf16) (constant S256x4096 .f32 0x00000000#32)

/-- A pre-activation at (p, c) is row `p` of the block against column `c` of the expert's gate-and-up matrix. -/
theorem preact_apply (x0 : Vec Ideal S256x2048 .bf16) (x1 : Vec Ideal S1x2048x4096 .bf16) (p : Fin 256) (c : Fin 4096) :
    preact x0 x1 (ix2 p c) = proj (fun k => x0 (ix2 p k)) (fun k c' => x1 (ix3 (0 : Fin 1) k c')) c := by
  unfold preact proj
  rw [matmul_up_apply, shapeCast_self]
  exact Finset.sum_congr rfl fun k _ => by rw [gu_cast_apply]

/-- The body's stored value spelt over the pre-activations. -/
theorem pay_eq (x0 : Vec Ideal S256x2048 .bf16) (x1 : Vec Ideal S1x2048x4096 .bf16) (x2 : Vec Ideal S1x2048x2048 .bf16) :
    k0_pay1 (F := Ideal) x0 x1 x2
      = matmul dot_S256x2048_S2048x2048_S256x2048_1_0_0_1_n_n none
          (truncf .bf16 (mulf (extractStridedSlice S256x2048 ![0, 2048] (preact x0 x1) slices_S256x4096_o0_2048_S256x2048)
            (mulf (extractStridedSlice S256x2048 ![0, 0] (preact x0 x1) slices_S256x4096_o0_0_S256x2048)
              (logistic (extractStridedSlice S256x2048 ![0, 0] (preact x0 x1) slices_S256x4096_o0_0_S256x2048)))) bitsLt_bf16_f32)
          (shapeCast S2048x2048 x2 shapeCasts_S1x2048x2048_S2048x2048 : FVec Ideal S2048x2048 .bf16) (constant S256x2048 .f32 0x00000000#32) := rfl

/-- The stored block at (p, h): row `p` of the activations block through the expert's two matrices. -/
theorem pay_apply (x0 : Vec Ideal S256x2048 .bf16) (x1 : Vec Ideal S1x2048x4096 .bf16) (x2 : Vec Ideal S1x2048x2048 .bf16)
    (p : Fin 256) (h : Fin 2048) :
    k0_pay1 (F := Ideal) x0 x1 x2 (ix2 p h)
      = expertRow (fun k => x0 (ix2 p k)) (fun k c => x1 (ix3 (0 : Fin 1) k c)) (fun d h' => x2 (ix3 (0 : Fin 1) d h')) h := by
  rw [pay_eq, matmul_down_apply]
  unfold expertRow swiglu
  refine Finset.sum_congr rfl fun d _ => ?_
  rw [dn_cast_apply, truncf_apply, mulf_apply, mulf_apply, logistic_apply, up_slice_apply, gate_slice_apply, preact_apply, preact_apply]

/-- The same with the three blocks identified as pieces of whole arrays: when row `p` of the activations block
    is row `r` of the array `X` and the two matrix blocks are those of the expert that owns row `r`, the stored
    value at (p, h) is the specification's row `r` at `h`. -/
theorem block_row (x0 : Vec Ideal S256x2048 .bf16) (x1 : Vec Ideal S1x2048x4096 .bf16) (x2 : Vec Ideal S1x2048x2048 .bf16)
    (X : (⟨2, ![32768, 2048]⟩ : Shape).Idx → EReal) (GU : (⟨3, ![8, 2048, 4096]⟩ : Shape).Idx → EReal)
    (DN : (⟨3, ![8, 2048, 2048]⟩ : Shape).Idx → EReal) (r : Fin 32768) (p : Fin 256) (h : Fin 2048)
    (h0 : ∀ k : Fin 2048, x0 (ix2 p k) = X (ix2 r k))
    (h1 : ∀ (k : Fin 2048) (c : Fin 4096), x1 (ix3 (0 : Fin 1) k c) = GU (ix3 (expertOf r) k c))
    (h2 : ∀ (d h' : Fin 2048), x2 (ix3 (0 : Fin 1) d h') = DN (ix3 (expertOf r) d h')) :
    k0_pay1 (F := Ideal) x0 x1 x2 (ix2 p h) = Grow X GU DN r h := by
  rw [pay_apply]
  unfold Grow
  simp only [h0, h1, h2]

end Cert.KernelIdeal.Body

end
-- ==== Proof.KernelArray.lean ====
/-
  From blocks to the array: what the kernel's result array holds after the run.

  The grid has 8 × 16 = 128 points; point `t` (expert `t / 16`, tile `t % 16`) stages rows
  `256 t … 256 t + 255` of the activations, the gate-and-up and down matrices of expert `t / 16`, and writes back
  rows `256 t … 256 t + 255` of the result. Row `256 t + p` is owned by expert `(256 t + p) / 4096 = t / 16`, so the
  matrices staged at the point are those of the row's owner, and what the point writes back is block `t` of the
  specification `G`. The 128 row blocks tile the 32768 rows (row `r` lies in block `r / 256`), so the array ends
  holding `G` of the arrays the region found; those are the format-converted arguments, which on the extended reals
  are the arguments themselves.
-/
import proofs.«143422_j6863357739469_1_alg».proof.Proof.Gen.KernelIdeal.Value
import proofs.«143422_j6863357739469_1_alg».proof.Proof.KernelRow
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.Experts

variable (m : (ℓ : Loc nD τ sig) → Buf (Elt Ideal) ℓ) (ρ : Dev nD → PrngReg)

/-! ## The arrays the region finds -/

/-- The converted activations are the activations: a change of float format is the identity on the extended reals. -/
theorem V_x (c : Dev nD) : (V m c main_v0 : S32768x2048.Idx → EReal) = m ((c : Thread nD τ).loc main_arg0) := by
  dsimp only [V, hostOps0]; after_results; rfl
/-- Likewise the gate-and-up matrices. -/
theorem V_gu (c : Dev nD) : (V m c main_v1 : S8x2048x4096.Idx → EReal) = m ((c : Thread nD τ).loc main_arg1) := by
  dsimp only [V, hostOps0]; after_results; rfl
/-- Likewise the down matrices. -/
theorem V_dn (c : Dev nD) : (V m c main_v2 : S8x2048x2048.Idx → EReal) = m ((c : Thread nD τ).loc main_arg2) := by
  dsimp only [V, hostOps0]; after_results; rfl

/-! ## The index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- Point `t` stages row block `t` of the activations and of the result, and the matrices of expert `t / 16`. -/
theorem idx_facts : ∀ t : Fin cfg0.N,
    win0_0.index t (0 : Fin 2) = t.val ∧ win0_0.index t (1 : Fin 2) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- Row `p` of the block staged at point `t`, as a row of the whole array. -/
def rowAt (t : Fin cfg0.N) (p : Fin 256) : Fin 32768 :=
  ⟨t.val * 256 + p.val, by have ht : t.val < 128 := lt_of_lt_of_eq t.isLt N_0; have := p.isLt; omega⟩

/-- Its owner is the expert whose matrices the point stages. -/
theorem expertOf_rowAt (t : Fin cfg0.N) (p : Fin 256) : (expertOf (rowAt t p)).val = t.val / 16 := by
  have ht : t.val < 128 := lt_of_lt_of_eq t.isLt N_0
  have := p.isLt
  show (t.val * 256 + p.val) / 4096 = t.val / 16
  omega

/-! ## What a point writes back -/

/-- The kernel's result array as the specification of the arrays the region finds. -/
abbrev found (c : Dev nD) : S32768x2048.Idx → EReal := G (V m c main_v0) (V m c main_v1) (V m c main_v2)

/-- Row `p` of the activations block at point `t` is row `rowAt t p` of the array. -/
theorem blk_x (c : Dev nD) (t : Fin cfg0.N) (p : Fin 256) (k : Fin 2048) :
    iblk m c 0 t (ix2 p k) = V m c main_v0 (ix2 (rowAt t p) k) := by
  obtain ⟨e0, e1, -⟩ := idx_facts t
  show V m c main_v0 (((cfg0.win 0).blk t).view.emb (ix2 p k)) = V m c main_v0 (ix2 (rowAt t p) k)
  refine congrArg _ (funext fun a => Fin.ext ?_)
  match a with
  | ⟨0, _⟩ => show win0_0.index t (0 : Fin 2) * 256 + 1 * p.val = t.val * 256 + p.val; rw [e0]; omega
  | ⟨1, _⟩ => show win0_0.index t (1 : Fin 2) * 2048 + 1 * k.val = k.val; rw [e1]; omega

/-- The gate-and-up block at point `t` is the matrix of the owner of the point's rows. -/
theorem blk_gu (c : Dev nD) (t : Fin cfg0.N) (p : Fin 256) (k : Fin 2048) (q : Fin 4096) :
    iblk m c 1 t (ix3 (0 : Fin 1) k q) = V m c main_v1 (ix3 (expertOf (rowAt t p)) k q) := by
  obtain ⟨-, -, e0, e1, e2, -⟩ := idx_facts t
  have he := expertOf_rowAt t p
  show V m c main_v1 (((cfg0.win 1).blk t).view.emb (ix3 (0 : Fin 1) k q)) = V m c main_v1 (ix3 (expertOf (rowAt t p)) k q)
  refine congrArg _ (funext fun a => Fin.ext ?_)
  match a with
  | ⟨0, _⟩ => show win0_1.index t (0 : Fin 3) * 1 + 1 * 0 = (expertOf (rowAt t p)).val; rw [e0, he]; omega
  | ⟨1, _⟩ => show win0_1.index t (1 : Fin 3) * 2048 + 1 * k.val = k.val; rw [e1]; omega
  | ⟨2, _⟩ => show win0_1.index t (2 : Fin 3) * 4096 + 1 * q.val = q.val; rw [e2]; omega

/-- The down block at point `t` likewise. -/
theorem blk_dn (c : Dev nD) (t : Fin cfg0.N) (p : Fin 256) (d : Fin 2048) (h : Fin 2048) :
    iblk m c 2 t (ix3 (0 : Fin 1) d h) = V m c main_v2 (ix3 (expertOf (rowAt t p)) d h) := by
  obtain ⟨-, -, -, -, -, e0, e1, e2, -⟩ := idx_facts t
  have he := expertOf_rowAt t p
  show V m c main_v2 (((cfg0.win 2).blk t).view.emb (ix3 (0 : Fin 1) d h)) = V m c main_v2 (ix3 (expertOf (rowAt t p)) d h)
  refine congrArg _ (funext fun a => Fin.ext ?_)
  match a with
  | ⟨0, _⟩ => show win0_2.index t (0 : Fin 3) * 1 + 1 * 0 = (expertOf (rowAt t p)).val; rw [e0, he]; omega
  | ⟨1, _⟩ => show win0_2.index t (1 : Fin 3) * 2048 + 1 * d.val = d.val; rw [e1]; omega
  | ⟨2, _⟩ => show win0_2.index t (2 : Fin 3) * 2048 + 1 * h.val = h.val; rw [e2]; omega

/-- Entry (p, h) of the result block at point `t` is entry (rowAt t p, h) of the result array. -/
theorem emb_out (t : Fin cfg0.N) (p : Fin 256) (h : Fin 2048) :
    ((cfg0.win 3).blk t).view.emb (ix2 p h) = ix2 (rowAt t p) h := by
  obtain ⟨-, -, -, -, -, -, -, -, e0, e1⟩ := idx_facts t
  refine funext fun a => Fin.ext ?_
  match a with
  | ⟨0, _⟩ => show win0_3.index t (0 : Fin 2) * 256 + 1 * p.val = t.val * 256 + p.val; rw [e0]; omega
  | ⟨1, _⟩ => show win0_3.index t (1 : Fin 2) * 2048 + 1 * h.val = h.val; rw [e1]; omega

/-- WHAT POINT `t` WRITES BACK is block `t` of the specification. -/
theorem flushed_eq (c : Dev nD) (t : Fin cfg0.N) :
    (dats m 0 c).flushed 3 t = ((cfg0.win 3).blk t).view.read (Elt Ideal) (found m c) := by
  rw [Cert.KernelIdeal.Value.flushed3]
  unfold out0_3
  rw [View.canon_unit_zero hz2]
  simp only [View.ld_unit_zero (S := S256x2048) hz2, View.ld_unit_zero (S := S1x2048x4096) hz3, View.ld_unit_zero (S := S1x2048x2048) hz3]
  funext j
  obtain ⟨p, h, rfl⟩ : ∃ (p : Fin 256) (h : Fin 2048), j = ix2 p h := ⟨j 0, j 1, eq_ix2 j⟩
  show k0_pay1 (F := Ideal) (iblk m c 0 t) (iblk m c 1 t) (iblk m c 2 t) (ix2 p h) = found m c (((cfg0.win 3).blk t).view.emb (ix2 p h))
  rw [emb_out t p h]
  exact Cert.KernelIdeal.Body.block_row (iblk m c 0 t) (iblk m c 1 t) (iblk m c 2 t) (V m c main_v0) (V m c main_v1) (V m c main_v2)
    (rowAt t p) p h (fun k => blk_x m c t p k) (fun k q => blk_gu m c t p k q) (fun d h' => blk_dn m c t p d h')

/-! ## The blocks tile the array -/

/-- An index of the array is in point `t`'s block iff each coordinate is in the block's range on its axis. -/
theorem mem_blk (t : Fin cfg0.N) (i : S32768x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v3).slice (win0_3.rect t)).set ↔ _
  rw [View.set_slice_whole, Rect.mem_set_unit]
  exact Iff.rfl

/-- Row `r` lies in the block of point `r / 256`. -/
theorem cover (i : S32768x2048.Idx) : ∃ t : Fin cfg0.N, (cfg0.win 3).flush t = true ∧ i ∈ ((cfg0.win 3).blk t).view.set := by
  have hi0 : (i 0).val < 32768 := (i 0).isLt
  have hi1 : (i 1).val < 2048 := (i 1).isLt
  let t : Fin cfg0.N := ⟨(i 0).val / 256, by rw [show cfg0.N = 128 from N_0]; omega⟩
  have htv : t.val = (i 0).val / 256 := rfl
  obtain ⟨-, -, -, -, -, -, -, -, e0, e1⟩ := idx_facts t
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; rw [e0, htv]; omega
  | ⟨1, _⟩ => show win0_3.index t (1 : Fin 2) * 2048 ≤ (i 1).val ∧ (i 1).val < win0_3.index t (1 : Fin 2) * 2048 + 2048; rw [e1]; omega

/-! ## The array after the run, and the run -/

/-- THE ARRAY after the run is the specification of the argument arrays. -/
theorem final (c : Dev nD) :
    (dats m 0 c).arrAt 3 cfg0.N
      = G (m ((c : Thread nD τ).loc main_arg0)) (m ((c : Thread nD τ).loc main_arg1)) (m ((c : Thread nD τ).loc main_arg2)) := by
  rw [(dats m 0 c).arrAt_eq_of_cover 3 (found m c) (fun t _ => flushed_eq m c t) cover]
  unfold found
  rw [V_x, V_gu, V_dn]

/-- The kernel's run re-posted: the result array at the specification of the arguments, the arguments unchanged. -/
theorem run : θ_run defs (onTc (τ := τ) (main (F := Ideal))) ⟨m, fun _ => 0, ρ⟩ fun r => ∀ c : Dev nD,
      r.2.mem ((c : Thread nD τ).loc main_v3)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.ArrayValue

end
-- ==== Proof.RefRow.lean ====
/-
  The reference's result, read at an element.

  The reference views the 32768 × 2048 activations as 8 × 4096 × 2048 (row `e · 4096 + t` is token `t` of expert
  `e`), contracts each expert's tokens with its gate-and-up matrix, slices the two column halves, forms
  `up · (gate · (1 / (1 + e^(-gate))))`, contracts with the expert's down matrix and flattens back. The quotient
  `1 / (1 + e^(-x))` IS the logistic function on the extended reals (the constant is the real one), and each
  contraction read at an index is the sum over the shared axis, so the result at (r, h) is `expertRow` of row `r`
  against the matrices of expert `r / 4096`: the specification `G`.
-/
import proofs.«143422_j6863357739469_1_alg».proof.Proof.Gen.ReferenceIdeal.Read
import proofs.«143422_j6863357739469_1_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx Cert.Experts

/-- Token `t` of expert `e` is row `e · 4096 + t` of the flat activations. -/
def rowOf (e : Fin 8) (t : Fin 4096) : Fin 32768 := ⟨e.val * 4096 + t.val, by have := e.isLt; have := t.isLt; omega⟩

/-- The reference's pre-activation of token (e, t) at column `c`. -/
theorem preact_apply (x : (⟨S32768x2048, .f32⟩ : BufTy).Contents (Elt Ideal)) (gu : (⟨S8x2048x4096, .f32⟩ : BufTy).Contents (Elt Ideal))
    (e : Fin 8) (t : Fin 4096) (c : Fin 4096) :
    val_main_v1 (F := Ideal) x gu (ix3 e t c) = proj (fun k => x (ix2 (rowOf e t) k)) (fun k c' => gu (ix3 e k c')) c := by
  rw [val_main_v1_apply]
  unfold proj
  refine Finset.sum_congr rfl fun k _ => ?_
  rw [val_main_v0_apply]
  have e0 : idx_main_v0 (lidx_main_v1 (ix3 e t c) k) = ix2 (rowOf e t) k := funext fun a => Fin.ext (by
    have he := e.isLt; have ht := t.isLt; have hk := k.isLt
    match a with
    | ⟨0, _⟩ => show ((e.val * 4096 + t.val) * 2048 + k.val) / 2048 = e.val * 4096 + t.val; omega
    | ⟨1, _⟩ => show ((e.val * 4096 + t.val) * 2048 + k.val) % 2048 = k.val; omega)
  have e1 : ridx_main_v1 (ix3 e t c) k = ix3 e k c := funext fun a => Fin.ext (by
    match a with
    | ⟨0, _⟩ => rfl
    | ⟨1, _⟩ => rfl
    | ⟨2, _⟩ => rfl)
  rw [e0, e1]

/-- The reference's intermediate feature `d` of token (e, t): SwiGLU of the token's pre-activations. -/
theorem act_apply (x : (⟨S32768x2048, .f32⟩ : BufTy).Contents (Elt Ideal)) (gu : (⟨S8x2048x4096, .f32⟩ : BufTy).Contents (Elt Ideal))
    (e : Fin 8) (t : Fin 4096) (d : Fin 2048) :
    val_main_v5 (F := Ideal) x gu (ix3 e t d) = swiglu (fun k => x (ix2 (rowOf e t) k)) (fun k c' => gu (ix3 e k c')) d := by
  have eg : idx_main_v2 (ix3 e t d) = ix3 e t (gateCol d) := funext fun a => Fin.ext (by
    match a with
    | ⟨0, _⟩ => rfl
    | ⟨1, _⟩ => rfl
    | ⟨2, _⟩ => rfl)
  have eu : idx_main_v3 (ix3 e t d) = ix3 e t (upCol d) := funext fun a => Fin.ext (by
    match a with
    | ⟨0, _⟩ => rfl
    | ⟨1, _⟩ => rfl
    | ⟨2, _⟩ => rfl)
  rw [val_main_v5_apply, val_main_v4_apply, val_main_call0_v5_apply, val_main_call0_v4_apply, val_main_call0_cst_0_apply,
    val_main_call0_v3_apply, val_main_call0_v2_apply, val_main_call0_cst_apply, val_main_call0_v1_apply, val_main_call0_v0_apply,
    val_main_v3_apply, val_main_v2_apply, eg, eu, preact_apply, preact_apply]
  show _ * (_ * Ideal.div (Ideal.ofBits .f32 0x3F800000#32) (Ideal.ofBits .f32 0x3F800000#32 + Ideal.exp (-_))) = _
  rw [Ideal.ofBits_one_f32]
  rfl

/-- The reference's result at (r, h). -/
theorem result_apply (x : (⟨S32768x2048, .f32⟩ : BufTy).Contents (Elt Ideal)) (gu : (⟨S8x2048x4096, .f32⟩ : BufTy).Contents (Elt Ideal))
    (dn : (⟨S8x2048x2048, .f32⟩ : BufTy).Contents (Elt Ideal)) (r : Fin 32768) (h : Fin 2048) :
    val_main_v7 (F := Ideal) x gu dn (ix2 r h) = Grow x gu dn r h := by
  have hr := r.isLt; have hh := h.isLt
  have e7 : idx_main_v7 (ix2 r h) = ix3 (expertOf r) (⟨r.val % 4096, Nat.mod_lt _ (by decide)⟩ : Fin 4096) h := funext fun a => Fin.ext (by
    match a with
    | ⟨0, _⟩ => show (r.val * 2048 + h.val) / 8388608 = r.val / 4096; omega
    | ⟨1, _⟩ => show (r.val * 2048 + h.val) / 2048 % 4096 = r.val % 4096; omega
    | ⟨2, _⟩ => show (r.val * 2048 + h.val) % 2048 = h.val; omega)
  have er : rowOf (expertOf r) (⟨r.val % 4096, Nat.mod_lt _ (by decide)⟩ : Fin 4096) = r := Fin.ext (by
    show r.val / 4096 * 4096 + r.val % 4096 = r.val; omega)
  rw [val_main_v7_apply, e7, val_main_v6_apply]
  unfold Grow expertRow
  refine Finset.sum_congr rfl fun d _ => ?_
  have el : lidx_main_v6 (ix3 (expertOf r) (⟨r.val % 4096, Nat.mod_lt _ (by decide)⟩ : Fin 4096) h) d
      = ix3 (expertOf r) (⟨r.val % 4096, Nat.mod_lt _ (by decide)⟩ : Fin 4096) d := funext fun a => Fin.ext (by
    match a with
    | ⟨0, _⟩ => rfl
    | ⟨1, _⟩ => rfl
    | ⟨2, _⟩ => rfl)
  have eR : ridx_main_v6 (ix3 (expertOf r) (⟨r.val % 4096, Nat.mod_lt _ (by decide)⟩ : Fin 4096) h) d = ix3 (expertOf r) d h := funext fun a => Fin.ext (by
    match a with
    | ⟨0, _⟩ => rfl
    | ⟨1, _⟩ => rfl
    | ⟨2, _⟩ => rfl)
  rw [el, eR, act_apply, er]

/-- The reference computes the specification. -/
theorem result_eq (x : (⟨S32768x2048, .f32⟩ : BufTy).Contents (Elt Ideal)) (gu : (⟨S8x2048x4096, .f32⟩ : BufTy).Contents (Elt Ideal))
    (dn : (⟨S8x2048x2048, .f32⟩ : BufTy).Contents (Elt Ideal)) :
    val_main_v7 (F := Ideal) x gu dn = G x gu dn := by
  funext i
  obtain ⟨r, h, rfl⟩ : ∃ (r : Fin 32768) (h : Fin 2048), i = ix2 r h := ⟨i 0, i 1, eq_ix2 i⟩
  rw [result_apply, G_ix2]

end Cert.ReferenceIdeal.RefValue

end
-- ==== Proof.lean ====
/-
  The certificate of a grouped mixture-of-experts feed-forward layer against its jnp reference.

  Eight experts, 4096 tokens each (rows sorted by expert), 2048 features. Every token row is projected by its
  expert's fused gate-and-up matrix to 4096 pre-activations; the first 2048 are gates and the last 2048 are ups;
  feature `d` becomes `up_d · (gate_d · σ(gate_d))` (SwiGLU, `σ` the logistic function) and the 2048 features are
  projected back by the expert's down matrix. `Cert.Experts.G` (Proof/Spec.lean) states this once.

  The kernel walks a grid of 8 × 16 points, 256 token rows per point, with the owning expert's two matrices staged
  whole; its body is two matrix products into zero accumulators around the SwiGLU (Proof/KernelRow.lean reads the
  stored block at an element; Proof/KernelArray.lean shows that the point's rows are owned by the staged expert, that
  each point writes back its block of `G`, and that the 128 blocks tile the array). The reference reshapes to
  8 × 4096 × 2048, contracts per expert, and spells the logistic function as `1 / (1 + e^(-x))`
  (Proof/RefRow.lean reads it at an element: the same `G`). On the extended reals the kernel's changes of float
  format are the identity and both sides are the same sums of the same products in the same order of
  multiplication, so no law that would need finite inputs is used: the precondition is never opened.

  The three frames are the generated ones (the reference's is its run with the result dropped); the idealization
  rewrote nothing, so `preserves` is `True`.
-/
import proofs.«143422_j6863357739469_1_alg».proof.Defs
import proofs.«143422_j6863357739469_1_alg».proof.Proof.Gen.Kernel
import proofs.«143422_j6863357739469_1_alg».proof.Proof.Gen.Kernel.Skeleton
import proofs.«143422_j6863357739469_1_alg».proof.Proof.Gen.Kernel.Launch
import proofs.«143422_j6863357739469_1_alg».proof.Proof.Gen.Kernel.Points
import proofs.«143422_j6863357739469_1_alg».proof.Proof.Gen.Kernel.Frame
import proofs.«143422_j6863357739469_1_alg».proof.Proof.Gen.KernelIdeal
import proofs.«143422_j6863357739469_1_alg».proof.Proof.Gen.KernelIdeal.Skeleton
import proofs.«143422_j6863357739469_1_alg».proof.Proof.Gen.KernelIdeal.Launch
import proofs.«143422_j6863357739469_1_alg».proof.Proof.Gen.KernelIdeal.Points
import proofs.«143422_j6863357739469_1_alg».proof.Proof.Gen.KernelIdeal.Frame
import proofs.«143422_j6863357739469_1_alg».proof.Proof.Gen.ReferenceIdeal
import proofs.«143422_j6863357739469_1_alg».proof.Proof.Gen.Pre_finite_inputs
import proofs.«143422_j6863357739469_1_alg».proof.Proof.Gen.KernelIdeal.Value
import proofs.«143422_j6863357739469_1_alg».proof.Proof.Gen.ReferenceIdeal.Run
import proofs.«143422_j6863357739469_1_alg».proof.Proof.Gen.ReferenceIdeal.Read
import proofs.«143422_j6863357739469_1_alg».proof.Proof.Spec
import proofs.«143422_j6863357739469_1_alg».proof.Proof.KernelRow
import proofs.«143422_j6863357739469_1_alg».proof.Proof.KernelArray
import proofs.«143422_j6863357739469_1_alg».proof.Proof.RefRow
import Idealize.ShloMosaic.Adequacy
import Idealize.ShloMosaic.Init

noncomputable section

namespace Cert.Proof

open Idealize.ShloMosaic Idealize.ShloMosaic.TcCoe Idealize.SL.Sem

/-- From arguments that agree, the kernel's result array (block by block the specification) and the reference's
    result (element by element the specification) are the same array. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
